-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x2048 : Shape := ⟨3, ![8, 2048, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S8x4096x2048 32) (main_arg1 : IVec S8x2048x2048 32) (main_arg2 : FVec F S2048 .f32) (main_arg3 : FVec F S2048 .f32) (main_arg4 : FVec F S2048 .f32) : IVec S_ 1 :=
  let main_v0 : FVec F S2048 .f32 := Host.absf main_arg2
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048 .f32 := Host.absf main_arg3
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x4096x2048 : Shape := ⟨3, ![8, 4096, 2048]⟩
abbrev S8x2048x2048 : Shape := ⟨3, ![8, 2048, 2048]⟩
abbrev S2048 : Shape := ⟨1, ![2048]⟩
abbrev S1x2048 : Shape := ⟨2, ![1, 2048]⟩
abbrev S1x128x2048 : Shape := ⟨3, ![1, 128, 2048]⟩
abbrev S1x2048x2048 : Shape := ⟨3, ![1, 2048, 2048]⟩
abbrev S2048x2048 : Shape := ⟨2, ![2048, 2048]⟩
abbrev S128x2048 : Shape := ⟨2, ![128, 2048]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x2048, .i32⟩
  | .hbm, ⟨1, _⟩ => ⟨S8x2048x2048, .i32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8x4096x2048, .f32⟩
  | .local _ .vmem, ⟨0, _⟩ => ⟨S1x128x2048, .i32⟩
  | .local _ .vmem, ⟨1, _⟩ => ⟨S1x128x2048, .i32⟩
  | .local _ .vmem, ⟨2, _⟩ => ⟨S1x2048x2048, .i32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x128x2048, .f32⟩
  | .local _ .vmem, ⟨7, _⟩ => ⟨S1x128x2048, .f32⟩
  | .local _ .vmem, ⟨8, _⟩ => ⟨S2048x2048, .bf16⟩
  | _, _ => ⟨S8x4096x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2048_S1x2048 : S2048.ShapeCasts S1x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x2048_S1x128x2048 : S128x2048.ShapeCasts S1x128x2048
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x4096x2048.size a
  hwx0_0 : ∀ i : grid0.Coords, EltTy.bits .i32 = 32 ∨ (Rect.block (s := S8x4096x2048) S1x128x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .i32 = 32 ∨ (Rect.block (s := S8x2048x2048) S1x2048x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x2048.size a ≤ S8x4096x2048.size a
  hwx0_5 : ∀ i : grid0.Coords, EltTy.bits .f32 = 32 ∨ (Rect.block (s := S8x4096x2048) S1x128x2048.size (cc0_transform_5 i) (hinb0_5 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x2048 : Shape := ⟨3, ![8, 2048, 2048]⟩
abbrev S2048 : Shape := ⟨1, ![2048]⟩
abbrev S1x1x2048 : Shape := ⟨3, ![1, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x2048, .i32⟩
  | .hbm, ⟨1, _⟩ => ⟨S8x2048x2048, .i32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S8x4096x2048, .f32⟩
  | .hbm, ⟨6, _⟩ => ⟨S8x2048x2048, .f32⟩
  | .hbm, ⟨7, _⟩ => ⟨S8x4096x2048, .f32⟩
  | .hbm, ⟨8, _⟩ => ⟨S1x1x2048, .f32⟩
  | .hbm, ⟨9, _⟩ => ⟨S8x4096x2048, .f32⟩
  | .hbm, ⟨10, _⟩ => ⟨S8x4096x2048, .f32⟩
  | .hbm, ⟨11, _⟩ => ⟨S1x1x2048, .f32⟩
  | .hbm, ⟨12, _⟩ => ⟨S8x4096x2048, .f32⟩
  | .hbm, ⟨13, _⟩ => ⟨S8x4096x2048, .f32⟩
  | .hbm, ⟨14, _⟩ => ⟨S1x1x2048, .f32⟩
  | .hbm, ⟨15, _⟩ => ⟨S8x4096x2048, .f32⟩
  | .hbm, ⟨16, _⟩ => ⟨S8x4096x2048, .f32⟩
  | _, _ => ⟨S8x4096x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  dot_S8x4096x2048_S8x2048x2048_S8x4096x2048_2_1_1_2_0_0_wf : DotDims.WF S8x4096x2048 S8x2048x2048 S8x4096x2048 [2] [1] [1] [2] [0] [0]

variable [Facts₀]

def dot_S8x4096x2048_S8x2048x2048_S8x4096x2048_2_1_1_2_0_0 : DotDims S8x4096x2048 S8x2048x2048 S8x4096x2048 where
  lhsContracting := [2]
  rhsContracting := [1]
  lhsNonContracting := [1]
  rhsNonContracting := [2]
  lhsBatch := [0]
  rhsBatch := [0]
  wf := dot_S8x4096x2048_S8x2048x2048_S8x4096x2048_2_1_1_2_0_0_wf

class Facts : Prop extends Facts₀ where

variable [Facts]
-- ==== Proof.AffineProduct.lean ====
/-
  The function both programs compute, entry by entry, over the extended reals.

  The two integer operands are read as the integers their words denote (signed). Entry (b, r, n) of the result is

      ((∑ k, x1[b, r, k] · x2[b, k, n]) + bias[n]) · scale[n] + offset[n]

  with the contraction index k running over the 2048 columns of x1's row and rows of x2's column, and the three
  per-channel vectors indexed by the output column n alone. The sum, the sums' order and the three outer operations
  are stated exactly as written here: no law of the extended reals is used to rearrange them, so nothing below asks
  the float inputs to be finite.
-/
import Idealize.ShloMosaic.PureOps.Ideal
import Idealize.ShloMosaic.Lib.ValueIdx

noncomputable section

namespace Cert.AffineProduct

open Idealize.ShloMosaic Idealize.ShloMosaic.ValueIdx
open scoped BigOperators

/-- The left operand's and the result's shape: 8 batches of 4096 rows by 2048 columns. -/
abbrev ShapeLhs : Shape := ⟨3, ![8, 4096, 2048]⟩
/-- The right operand's shape: 8 batches of 2048 rows by 2048 columns. -/
abbrev ShapeRhs : Shape := ⟨3, ![8, 2048, 2048]⟩
/-- A per-channel vector's shape: one entry per output column. -/
abbrev ShapeChan : Shape := ⟨1, ![2048]⟩

/-- An integer word as the extended real it denotes, read signed. -/
abbrev wordVal (w : BitVec 32) : EReal := ((w.toInt : ℝ) : EReal)

/-- The batched product of the two integer operands, plus the bias, times the scale, plus the offset. -/
def value (x1 : ShapeLhs.Idx → BitVec 32) (x2 : ShapeRhs.Idx → BitVec 32) (scale offset bias : ShapeChan.Idx → EReal) :
    ShapeLhs.Idx → EReal := fun i =>
  ((∑ k : Fin 2048, wordVal (x1 (ix3 (i 0) (i 1) k)) * wordVal (x2 (ix3 (i 0) k (i 2)))) + bias (ix1 (i 2)))
    * scale (ix1 (i 2)) + offset (ix1 (i 2))

/-- The function at an index given by its three coordinates. -/
theorem value_apply (x1 : ShapeLhs.Idx → BitVec 32) (x2 : ShapeRhs.Idx → BitVec 32) (scale offset bias : ShapeChan.Idx → EReal)
    (b : Fin 8) (r : Fin 4096) (n : Fin 2048) :
    value x1 x2 scale offset bias (ix3 b r n)
      = ((∑ k : Fin 2048, wordVal (x1 (ix3 b r k)) * wordVal (x2 (ix3 b k n))) + bias (ix1 n)) * scale (ix1 n) + offset (ix1 n) := rfl

end Cert.AffineProduct

end
-- ==== Proof.ReferenceValue.lean ====
/-
  The reference's result is the affine product.

  The reference converts both integer operands to floats (at the exact values: each word's signed integer), takes the
  batched product — at an output index (b, r, n) the sum over k of the left operand at (b, r, k) times the right at
  (b, k, n) —, and then adds the bias, multiplies by the scale and adds the offset, each broadcast from its one
  axis to the output's last axis, so each read at n alone. Read one operation at a time that is, term for term, the
  function `AffineProduct.value`; what is proved here is only that the indices the operations read at are the ones
  that function names.
-/
import proofs.«104903_j22265110462493_1_alg».proof.Proof.Gen.ReferenceIdeal.Read
import proofs.«104903_j22265110462493_1_alg».proof.Proof.AffineProduct

noncomputable section

namespace Cert.ReferenceIdeal.RefValue

open Cert.ReferenceIdeal Cert.ReferenceIdeal.Read Idealize.ShloMosaic Idealize.ShloMosaic.ValueIdx
open scoped BigOperators

/-- The product's left operand is read at (b, r, k). -/
theorem left_index (i : S8x4096x2048.Idx) (k : Fin 2048) : lidx_main_v2 i k = ix3 (i 0) (i 1) k :=
  funext fun a => Fin.ext (by match a with | ⟨0, _⟩ => rfl | ⟨1, _⟩ => rfl | ⟨2, _⟩ => rfl)

/-- The product's right operand is read at (b, k, n). -/
theorem right_index (i : S8x4096x2048.Idx) (k : Fin 2048) : ridx_main_v2 i k = ix3 (i 0) k (i 2) :=
  funext fun a => Fin.ext (by match a with | ⟨0, _⟩ => rfl | ⟨1, _⟩ => rfl | ⟨2, _⟩ => rfl)

/-- The bias, broadcast twice, is read at the output's column. -/
theorem bias_index (i : S8x4096x2048.Idx) : idx_main_v3 (idx_main_v4 i) = ix1 (i 2) :=
  funext fun a => Fin.ext (by match a with | ⟨0, _⟩ => rfl)

/-- The scale, broadcast twice, is read at the output's column. -/
theorem scale_index (i : S8x4096x2048.Idx) : idx_main_v6 (idx_main_v7 i) = ix1 (i 2) :=
  funext fun a => Fin.ext (by match a with | ⟨0, _⟩ => rfl)

/-- The offset, broadcast twice, is read at the output's column. -/
theorem offset_index (i : S8x4096x2048.Idx) : idx_main_v9 (idx_main_v10 i) = ix1 (i 2) :=
  funext fun a => Fin.ext (by match a with | ⟨0, _⟩ => rfl)

/-- The reference's last stage, as a function of the five arguments, is the affine product: the operands' words read
    as integers, the batched product a sum over the contracted axis, then bias, scale and offset at the column. -/
theorem result_eq (x1 : (⟨S8x4096x2048, .i32⟩ : BufTy).Contents (Elt Ideal)) (x2 : (⟨S8x2048x2048, .i32⟩ : BufTy).Contents (Elt Ideal))
    (scale offset bias : (⟨S2048, .f32⟩ : BufTy).Contents (Elt Ideal)) :
    val_main_v11 (F := Ideal) x1 x2 scale offset bias = Cert.AffineProduct.value x1 x2 scale offset bias := by
  funext i
  rw [val_main_v11_apply, val_main_v8_apply, val_main_v5_apply, val_main_v2_apply, val_main_v4_apply, val_main_v3_apply,
    val_main_v7_apply, val_main_v6_apply, val_main_v10_apply, val_main_v9_apply]
  simp only [val_main_v0_apply, val_main_v1_apply, left_index, right_index, bias_index, scale_index, offset_index]
  rfl

end Cert.ReferenceIdeal.RefValue

end
-- ==== Proof.KernelPieces.lean ====
/-
  What one grid point's body leaves behind, as values.

  The body has two cases. At a point that opens a batch (its position a multiple of 32: row tile 0 of the batch) it
  first overwrites the whole scratch with the batch's right-operand block converted to floats, then reads the scratch
  back for the product. At every other point it leaves the scratch alone and reads what the point before left there.
  In both cases it stores one whole output block: the product of the converted left block with the scratch, plus the
  bias row, times the scale row, plus the offset row.

  So, writing `convert` for the conversion of the right block and `tile` for the output block as a function of the
  left block, the scratch's contents and the three rows:
    * an opening point leaves `convert (right block)` in the scratch and `tile (left) (convert (right block)) …` in
      the output block;
    * any other point leaves the scratch as it found it, and `tile (left) (scratch as found) …` in the output block.
  Each is read off the single covering store the body makes into the buffer (a whole-buffer store at offset zero reads
  back as the stored value), with every load of an input buffer reading the whole buffer's contents.
-/
import proofs.«104903_j22265110462493_1_alg».proof.Proof.Gen.KernelIdeal.Value
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- A rank-2 offset of zeros. -/
theorem zero_offset2 : (![0, 0] : Fin 2 → Nat) = fun _ => 0 := funext fun a => by fin_cases a <;> rfl
/-- A rank-3 offset of zeros. -/
theorem zero_offset3 : (![0, 0, 0] : Fin 3 → Nat) = fun _ => 0 := funext fun a => by fin_cases a <;> rfl

/-- An opening point leaves in the scratch the right-operand block converted to floats. -/
theorem scratch_opening (c : Dev nD) (i : grid0.Coords) (a2 : Memref sig .tc .vmem S1x128x2048 .i32) (h2 : a2.IsWhole) (a3 : Memref sig .tc .vmem S1x2048x2048 .i32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (a7 : Memref sig .tc .vmem S1x128x2048 .f32) (h7 : a7.IsWhole) (a8 : Memref sig .tc .vmem S2048x2048 .bf16) (h8 : a8.IsWhole) (hc : cond0_0 i)
    (x0 : Vec F S1x128x2048 .i32) (x1 : Vec F S1x2048x2048 .i32) (x2 : Vec F S1x2048 .f32) (x3 : Vec F S1x2048 .f32) (x4 : Vec F S1x2048 .f32) :
    sout0_A_0 c i a2 h2 a3 h3 a4 h4 a5 h5 a6 h6 a7 h7 a8 h8 hc x0 x1 x2 x3 x4 = k0_pay1 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero zero_offset2]
  simp only [View.readAt_eq_ld, h3.read_unread, View.ld_unit_zero (S := S1x2048x2048) zero_offset3]

/-- An opening point leaves in the output block the tile computed over the scratch it has just written. -/
theorem block_opening (c : Dev nD) (i : grid0.Coords) (a2 : Memref sig .tc .vmem S1x128x2048 .i32) (h2 : a2.IsWhole) (a3 : Memref sig .tc .vmem S1x2048x2048 .i32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (a7 : Memref sig .tc .vmem S1x128x2048 .f32) (h7 : a7.IsWhole) (a8 : Memref sig .tc .vmem S2048x2048 .bf16) (h8 : a8.IsWhole) (hc : cond0_0 i)
    (x0 : Vec F S1x128x2048 .i32) (x1 : Vec F S1x2048x2048 .i32) (x2 : Vec F S1x2048 .f32) (x3 : Vec F S1x2048 .f32) (x4 : Vec F S1x2048 .f32) :
    out0_A_5 c i a2 h2 a3 h3 a4 h4 a5 h5 a6 h6 a7 h7 a8 h8 hc x0 x1 x2 x3 x4 = k0_pay2 x0 (k0_pay1 x1) x2 x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero zero_offset3]
  simp only [View.readAt_eq_ld, h2.read_unread, h3.read_unread, h4.read_unread, h5.read_unread, h6.read_unread,
    View.ld_unit_zero (S := S1x128x2048) zero_offset3, View.ld_unit_zero (S := S1x2048x2048) zero_offset3,
    View.ld_unit_zero (S := S1x2048) zero_offset2, View.readCov_unit_zero (S := S2048x2048) _ zero_offset2]

/-- Any other point leaves in the output block the tile computed over the scratch as the point before left it. -/
theorem block_later (c : Dev nD) (i : grid0.Coords) (a2 : Memref sig .tc .vmem S1x128x2048 .i32) (h2 : a2.IsWhole) (a3 : Memref sig .tc .vmem S1x2048x2048 .i32) (h3 : a3.IsWhole) (a4 : Memref sig .tc .vmem S1x2048 .f32) (h4 : a4.IsWhole) (a5 : Memref sig .tc .vmem S1x2048 .f32) (h5 : a5.IsWhole) (a6 : Memref sig .tc .vmem S1x2048 .f32) (h6 : a6.IsWhole) (a7 : Memref sig .tc .vmem S1x128x2048 .f32) (h7 : a7.IsWhole) (a8 : Memref sig .tc .vmem S2048x2048 .bf16) (h8 : a8.IsWhole) (hc : ¬cond0_0 i)
    (x0 : Vec F S1x128x2048 .i32) (x1 : Vec F S1x2048x2048 .i32) (x2 : Vec F S1x2048 .f32) (x3 : Vec F S1x2048 .f32) (x4 : Vec F S1x2048 .f32) (xs : Vec F S2048x2048 .bf16) :
    out0_B_5 c i a2 h2 a3 h3 a4 h4 a5 h5 a6 h6 a7 h7 a8 h8 hc x0 x1 x2 x3 x4 xs = k0_pay2 x0 xs x2 x3 x4 := by
  unfold out0_B_5
  rw [View.read_writes_eq_canon _ _ _ (cover0_B_5 c i a2 h2 a3 h3 a4 h4 a5 h5 a6 h6 a7 h7 a8 h8 hc x0 x1 x2 x3 x4 xs)]
  unfold kernelRun0_B
  dsimp only
  rw [View.canon_unit_zero zero_offset3]
  simp only [View.readAt_eq_ld, h2.read_unread, h8.read_unread, h4.read_unread, h5.read_unread, h6.read_unread,
    View.ld_unit_zero (S := S1x128x2048) zero_offset3, View.ld_unit_zero (S := S2048x2048) zero_offset2,
    View.ld_unit_zero (S := S1x2048) zero_offset2]

end Cert.KernelIdeal.Pieces

end
-- ==== Proof.KernelTile.lean ====
/-
  The body's two stored values, read at an index, over the extended reals.

  `convert`: the right-operand block, of shape [1, 2048, 2048], with its unit axis dropped and each word turned into the
  float of its signed integer. At (k, n) it is the integer of the block's word at (0, k, n).

  `tile`: the left block, of shape [1, 128, 2048], with its unit axis dropped and converted the same way, multiplied
  as a matrix with the scratch's [2048, 2048] contents into a zero accumulator; then the bias row added, the scale row
  multiplied, the offset row added, each row of shape [1, 2048] spread over the 128 rows; and the unit axis put back.
  At (0, r, n) it is
      ((∑ k, integer of left (0, r, k) · scratch (k, n)) + bias (0, n)) · scale (0, n) + offset (0, n).
  The product into a zero accumulator is exactly the sum over the contracted axis (zero plus a sum is the sum, also at
  infinite entries); the left operand is read at (row, k) and the right at (k, column).
-/
import proofs.«104903_j22265110462493_1_alg».proof.Proof.Gen.KernelIdeal.Skeleton
import proofs.«104903_j22265110462493_1_alg».proof.Proof.AffineProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.AffineProduct
open scoped BigOperators

/-- The conversion at (k, n): the integer of the block's word at (0, k, n). -/
theorem convert_apply (x : Vec Ideal S1x2048x2048 .i32) (k n : Fin 2048) :
    k0_pay1 (F := Ideal) x (ix2 k n) = wordVal (x (ix3 (0 : Fin 1) k n)) := by
  unfold k0_pay1
  rw [shapeCast_self, sitofp_apply, shapeCast_1ab_ab_apply]
  rfl

/-- The product's left operand is read in the output's row … -/
theorem lhs_row (j : S128x2048.Idx) (q : dot_S128x2048_S2048x2048_S128x2048_1_0_0_1_n_n.contr.Idx) :
    (dot_S128x2048_S2048x2048_S128x2048_1_0_0_1_n_n.lhsIdx j q 0).val = (j 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
/-- … at the contracted index; -/
theorem lhs_contracted (j : S128x2048.Idx) (q : dot_S128x2048_S2048x2048_S128x2048_1_0_0_1_n_n.contr.Idx) :
    (dot_S128x2048_S2048x2048_S128x2048_1_0_0_1_n_n.lhsIdx j q 1).val = (q ⟨0, by decide⟩).val :=
  dot_S128x2048_S2048x2048_S128x2048_1_0_0_1_n_n.lhsIdx_val_of_single rfl j q
/-- the right operand at the contracted index … -/
theorem rhs_contracted (j : S128x2048.Idx) (q : dot_S128x2048_S2048x2048_S128x2048_1_0_0_1_n_n.contr.Idx) :
    (dot_S128x2048_S2048x2048_S128x2048_1_0_0_1_n_n.rhsIdx j q 0).val = (q ⟨0, by decide⟩).val :=
  dot_S128x2048_S2048x2048_S128x2048_1_0_0_1_n_n.rhsIdx_val_of_single rfl j q
/-- … in the output's column. -/
theorem rhs_column (j : S128x2048.Idx) (q : dot_S128x2048_S2048x2048_S128x2048_1_0_0_1_n_n.contr.Idx) :
    (dot_S128x2048_S2048x2048_S128x2048_1_0_0_1_n_n.rhsIdx j q 1).val = (j 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The matrix product into a zero accumulator, at (r, n): the sum over k of left (r, k) times right (k, n). -/
theorem product_apply (l : FVec Ideal S128x2048 .bf16) (w : FVec Ideal S2048x2048 .bf16) (r : Fin 128) (n : Fin 2048) :
    matmul dot_S128x2048_S2048x2048_S128x2048_1_0_0_1_n_n none l w (constant S128x2048 .f32 0x00000000#32) (ix2 r n)
      = ∑ k : Fin 2048, l (ix2 r k) * w (ix2 k n) := by
  simp only [matmul]
  rw [Ideal.matmul_constant_zero_apply, ← Equiv.sum_comp (ValueIdx.contrEquiv1 dot_S128x2048_S2048x2048_S128x2048_1_0_0_1_n_n 2048 rfl rfl).symm]
  refine Finset.sum_congr rfl fun k _ => ?_
  have hk := ValueIdx.contrEquiv1_symm_val dot_S128x2048_S2048x2048_S128x2048_1_0_0_1_n_n 2048 rfl rfl k
  have el : dot_S128x2048_S2048x2048_S128x2048_1_0_0_1_n_n.lhsIdx (ix2 r n) ((ValueIdx.contrEquiv1 dot_S128x2048_S2048x2048_S128x2048_1_0_0_1_n_n 2048 rfl rfl).symm k) = ix2 r k := funext fun a => Fin.ext (by
    match a with
    | ⟨0, _⟩ => exact lhs_row _ _
    | ⟨1, _⟩ => exact (lhs_contracted _ _).trans hk)
  have er : dot_S128x2048_S2048x2048_S128x2048_1_0_0_1_n_n.rhsIdx (ix2 r n) ((ValueIdx.contrEquiv1 dot_S128x2048_S2048x2048_S128x2048_1_0_0_1_n_n 2048 rfl rfl).symm k) = ix2 k n := funext fun a => Fin.ext (by
    match a with
    | ⟨0, _⟩ => exact (rhs_contracted _ _).trans hk
    | ⟨1, _⟩ => exact rhs_column _ _)
  rw [el, er]

/-- The tile at (u, r, n), u the unit coordinate: the product's entry plus the bias, times the scale, plus the offset. -/
theorem tile_apply (x0 : Vec Ideal S1x128x2048 .i32) (w : Vec Ideal S2048x2048 .bf16) (bias scale offset : Vec Ideal S1x2048 .f32)
    (u : Fin 1) (r : Fin 128) (n : Fin 2048) :
    k0_pay2 (F := Ideal) x0 w bias scale offset (ix3 u r n)
      = ((∑ k : Fin 2048, wordVal (x0 (ix3 (0 : Fin 1) r k)) * w (ix2 k n)) + bias (ix2 (0 : Fin 1) n)) * scale (ix2 (0 : Fin 1) n)
          + offset (ix2 (0 : Fin 1) n) := by
  unfold k0_pay2
  rw [shapeCast_ab_1ab_apply, addf_apply, mulf_apply, addf_apply, product_apply,
    broadcastTo_1b_ab_apply, broadcastTo_1b_ab_apply, broadcastTo_1b_ab_apply, shapeCast_self, shapeCast_self, shapeCast_self]
  refine congrArg (fun s => (s + bias (ix2 (0 : Fin 1) n)) * scale (ix2 (0 : Fin 1) n) + offset (ix2 (0 : Fin 1) n)) ?_
  refine Finset.sum_congr rfl fun k _ => ?_
  rw [sitofp_apply, shapeCast_1ab_ab_apply]
  rfl

end Cert.KernelIdeal.Tile

end
-- ==== Proof.KernelBlocks.lean ====
/-
  The kernel's blocks, point by point.

  The grid has 256 points, run in order; point t works on batch t / 32 and on row tile t % 32 of that batch (128 rows).
  Its left block is rows 128·(t % 32) … of batch t / 32 of the left operand; its right block is the whole batch t / 32
  of the right operand; its three row blocks are the whole bias, scale and offset rows, each the host's reshape of a
  vector to one row.

  THE SCRATCH. After point t the scratch holds batch t / 32 of the right operand, converted to floats: a point that
  opens a batch (t % 32 = 0) writes exactly that, and any other point leaves the scratch as it found it, while
  belonging to the same batch as the point before (t % 32 ≠ 0 gives (t - 1) / 32 = t / 32). By induction on the point.

  THE OUTPUT BLOCK. Hence at EVERY point, whichever case it is, the block stored is the tile of the point's left block
  with batch t / 32 of the right operand converted: an opening point computes over the scratch it has just written, a
  later point over the scratch as left by the point before.
-/
import proofs.«104903_j22265110462493_1_alg».proof.Proof.KernelPieces
import proofs.«104903_j22265110462493_1_alg».proof.Proof.KernelTile
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.AffineProduct
open Idealize.ShloMosaic.Pipeline (Dat)
open scoped BigOperators

variable (m : (ℓ : Loc nD τ sig) → Buf (Elt Ideal) ℓ)

/-! ## The arrays as the region finds them, and the blocks, at their literal types -/

abbrev lhsArr (c : Dev nD) : Vec Ideal S8x4096x2048 .i32 := V m c main_arg0
abbrev rhsArr (c : Dev nD) : Vec Ideal S8x2048x2048 .i32 := V m c main_arg1
abbrev biasRow (c : Dev nD) : Vec Ideal S1x2048 .f32 := V m c main_v0
abbrev scaleRow (c : Dev nD) : Vec Ideal S1x2048 .f32 := V m c main_v1
abbrev offsetRow (c : Dev nD) : Vec Ideal S1x2048 .f32 := V m c main_v2

abbrev lhsBlk (c : Dev nD) (t : Fin cfg0.N) : Vec Ideal S1x128x2048 .i32 := iblk m c 0 t
abbrev rhsBlk (c : Dev nD) (t : Fin cfg0.N) : Vec Ideal S1x2048x2048 .i32 := iblk m c 1 t
abbrev biasBlk (c : Dev nD) (t : Fin cfg0.N) : Vec Ideal S1x2048 .f32 := iblk m c 2 t
abbrev scaleBlk (c : Dev nD) (t : Fin cfg0.N) : Vec Ideal S1x2048 .f32 := iblk m c 3 t
abbrev offsetBlk (c : Dev nD) (t : Fin cfg0.N) : Vec Ideal S1x2048 .f32 := iblk m c 4 t

/-- The batch a point works on, as an index of the batch axis (the remainder only makes the bound evident: a point's
    position is below 256). -/
abbrev batchOf (n : ℕ) : Fin 8 := ⟨(n / 32) % 8, Nat.mod_lt _ (by decide)⟩

theorem point_lt (t : Fin cfg0.N) : t.val < 256 := lt_of_lt_of_eq t.isLt N_0

/-! ## Where each window's block sits, decided over the grid -/

theorem block_index : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 32 ∧ win0_5.index t (1 : Fin 3) = t.val % 32 ∧ win0_5.index t (2 : Fin 3) = 0 :=
  (by decide +kernel : ∀ t : Fin grid0.N, _)

/-- The left block at (u, r, k) is the left operand at (batch, 128·tile + r, k). -/
theorem lhsBlk_apply (c : Dev nD) (t : Fin cfg0.N) (u : Fin 1) (r : Fin 128) (k : Fin 2048)
    (row : Fin 4096) (hrow : row.val = (t.val % 32) * 128 + r.val) :
    lhsBlk m c t (ix3 u r k) = lhsArr m c (ix3 (batchOf t.val) row k) := by
  obtain ⟨e0, e1, e2, -⟩ := block_index t
  have hN := point_lt t
  show V m c main_arg0 (((cfg0.win 0).blk t).view.emb (ix3 u r k)) = V m c main_arg0 _
  refine congrArg (V m c main_arg0) (funext fun a => Fin.ext ?_)
  match a with
  | ⟨0, _⟩ => show win0_0.index t (0 : Fin 3) * 1 + 1 * u.val = (t.val / 32) % 8; omega
  | ⟨1, _⟩ => show win0_0.index t (1 : Fin 3) * 128 + 1 * r.val = row.val; omega
  | ⟨2, _⟩ => show win0_0.index t (2 : Fin 3) * 2048 + 1 * k.val = k.val; omega

/-- The right block at (u, k, n) is the right operand at (batch, k, n). -/
theorem rhsBlk_apply (c : Dev nD) (t : Fin cfg0.N) (u : Fin 1) (k n : Fin 2048) :
    rhsBlk m c t (ix3 u k n) = rhsArr m c (ix3 (batchOf t.val) k n) := by
  obtain ⟨-, -, -, e0, e1, e2, -⟩ := block_index t
  have hN := point_lt t
  show V m c main_arg1 (((cfg0.win 1).blk t).view.emb (ix3 u k n)) = V m c main_arg1 _
  refine congrArg (V m c main_arg1) (funext fun a => Fin.ext ?_)
  match a with
  | ⟨0, _⟩ => show win0_1.index t (0 : Fin 3) * 1 + 1 * u.val = (t.val / 32) % 8; omega
  | ⟨1, _⟩ => show win0_1.index t (1 : Fin 3) * 2048 + 1 * k.val = k.val; omega
  | ⟨2, _⟩ => show win0_1.index t (2 : Fin 3) * 2048 + 1 * n.val = n.val; omega

/-- A row block is the whole row. -/
theorem biasBlk_apply (c : Dev nD) (t : Fin cfg0.N) (u : Fin 1) (n : Fin 2048) :
    biasBlk m c t (ix2 u n) = biasRow m c (ix2 (0 : Fin 1) n) := by
  obtain ⟨-, -, -, -, -, -, e0, e1, -⟩ := block_index t
  show V m c main_v0 (((cfg0.win 2).blk t).view.emb (ix2 u n)) = V m c main_v0 _
  refine congrArg (V m c main_v0) (funext fun a => Fin.ext ?_)
  match a with
  | ⟨0, _⟩ => show win0_2.index t (0 : Fin 2) * 1 + 1 * u.val = 0; omega
  | ⟨1, _⟩ => show win0_2.index t (1 : Fin 2) * 2048 + 1 * n.val = n.val; omega

theorem scaleBlk_apply (c : Dev nD) (t : Fin cfg0.N) (u : Fin 1) (n : Fin 2048) :
    scaleBlk m c t (ix2 u n) = scaleRow m c (ix2 (0 : Fin 1) n) := by
  obtain ⟨-, -, -, -, -, -, -, -, e0, e1, -⟩ := block_index t
  show V m c main_v1 (((cfg0.win 3).blk t).view.emb (ix2 u n)) = V m c main_v1 _
  refine congrArg (V m c main_v1) (funext fun a => Fin.ext ?_)
  match a with
  | ⟨0, _⟩ => show win0_3.index t (0 : Fin 2) * 1 + 1 * u.val = 0; omega
  | ⟨1, _⟩ => show win0_3.index t (1 : Fin 2) * 2048 + 1 * n.val = n.val; omega

theorem offsetBlk_apply (c : Dev nD) (t : Fin cfg0.N) (u : Fin 1) (n : Fin 2048) :
    offsetBlk m c t (ix2 u n) = offsetRow m c (ix2 (0 : Fin 1) n) := by
  obtain ⟨-, -, -, -, -, -, -, -, -, -, e0, e1, -⟩ := block_index t
  show V m c main_v2 (((cfg0.win 4).blk t).view.emb (ix2 u n)) = V m c main_v2 _
  refine congrArg (V m c main_v2) (funext fun a => Fin.ext ?_)
  match a with
  | ⟨0, _⟩ => show win0_4.index t (0 : Fin 2) * 1 + 1 * u.val = 0; omega
  | ⟨1, _⟩ => show win0_4.index t (1 : Fin 2) * 2048 + 1 * n.val = n.val; omega

/-! ## The three rows are the host's reshapes of the per-channel vectors -/

theorem biasRow_apply (c : Dev nD) (n : Fin 2048) :
    biasRow m c (ix2 (0 : Fin 1) n) = m ((c : Thread nD τ).loc main_arg4) (ix1 n) := by
  have e : (V m c main_v0 : S1x2048.Idx → EReal) = shapeCast S1x2048 (m ((c : Thread nD τ).loc main_arg4)) shapeCasts_S2048_S1x2048 := by
    dsimp only [Gen.V, Gen.hostOps0]; after_results; rfl
  show V m c main_v0 (ix2 (0 : Fin 1) n) = _
  rw [e, shapeCast_a_1a_apply]

theorem scaleRow_apply (c : Dev nD) (n : Fin 2048) :
    scaleRow m c (ix2 (0 : Fin 1) n) = m ((c : Thread nD τ).loc main_arg2) (ix1 n) := by
  have e : (V m c main_v1 : S1x2048.Idx → EReal) = shapeCast S1x2048 (m ((c : Thread nD τ).loc main_arg2)) shapeCasts_S2048_S1x2048 := by
    dsimp only [Gen.V, Gen.hostOps0]; after_results; rfl
  show V m c main_v1 (ix2 (0 : Fin 1) n) = _
  rw [e, shapeCast_a_1a_apply]

theorem offsetRow_apply (c : Dev nD) (n : Fin 2048) :
    offsetRow m c (ix2 (0 : Fin 1) n) = m ((c : Thread nD τ).loc main_arg3) (ix1 n) := by
  have e : (V m c main_v2 : S1x2048.Idx → EReal) = shapeCast S1x2048 (m ((c : Thread nD τ).loc main_arg3)) shapeCasts_S2048_S1x2048 := by
    dsimp only [Gen.V, Gen.hostOps0]; after_results; rfl
  show V m c main_v2 (ix2 (0 : Fin 1) n) = _
  rw [e, shapeCast_a_1a_apply]

/-! ## The scratch after every point -/

/-- A batch of the right operand, converted to floats. -/
def rhsFloats (c : Dev nD) (b : Fin 8) : Vec Ideal S2048x2048 .bf16 := fun j => wordVal (rhsArr m c (ix3 b (j 0) (j 1)))

/-- The conversion of a point's right block is its batch of the right operand, converted. -/
theorem convert_block (c : Dev nD) (t : Fin cfg0.N) : k0_pay1 (F := Ideal) (rhsBlk m c t) = rhsFloats m c (batchOf t.val) := by
  funext j
  obtain ⟨k, n, rfl⟩ : ∃ (k n : Fin 2048), j = ix2 k n := ⟨j 0, j 1, eq_ix2 j⟩
  refine (Tile.convert_apply (rhsBlk m c t) k n).trans ?_
  exact congrArg wordVal (rhsBlk_apply m c t (0 : Fin 1) k n)

/-- After point n the scratch holds batch n / 32 of the right operand, converted. -/
theorem scratch_after (c : Dev nD) : ∀ (n : ℕ) (h : n < cfg0.N), (outsAt0 m c n h).2 = rhsFloats m c (batchOf n)
  | 0, h => by
    rw [outsAt0_A m c ⟨0, h⟩ rfl]; dsimp only
    exact (Pieces.scratch_opening (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)).trans (convert_block m c ⟨0, h⟩)
  | n + 1, h => by
    have hN : n + 1 < 256 := lt_of_lt_of_eq h N_0
    by_cases h0 : (n + 1) % 32 = 0
    · rw [outsAt0_A m c ⟨n + 1, h⟩ h0]; dsimp only
      exact (Pieces.scratch_opening (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩)).trans (convert_block m c ⟨n + 1, h⟩)
    · rw [outsAt0_B m c ⟨n + 1, h⟩ h0]; dsimp only
      unfold sout0_B_0
      have hb : batchOf (n + 1) = batchOf n := Fin.ext (by show ((n + 1) / 32) % 8 = (n / 32) % 8; omega)
      rw [hb]
      exact scratch_after c n (Nat.lt_of_succ_lt h)

/-! ## The output block at every point -/

/-- At every point the block stored is the tile of the point's left block with its batch of the right operand. -/
theorem block_at (c : Dev nD) (t : Fin cfg0.N) :
    (outsAt0 m c t.val t.isLt).1
      = k0_pay2 (F := Ideal) (lhsBlk m c t) (rhsFloats m c (batchOf t.val)) (biasBlk m c t) (scaleBlk m c t) (offsetBlk m c t) := by
  have hN := point_lt t
  by_cases h0 : t.val % 32 = 0
  · rw [outsAt0_A m c t h0]; dsimp only
    refine (Pieces.block_opening (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans ?_
    exact congrArg (fun w => k0_pay2 (F := Ideal) (lhsBlk m c t) w (biasBlk m c t) (scaleBlk m c t) (offsetBlk m c t)) (convert_block m c t)
  · rw [outsAt0_B m c t h0]; dsimp only
    refine (Pieces.block_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).trans ?_
    have hb : batchOf (t.val - 1) = batchOf t.val := Fin.ext (by show ((t.val - 1) / 32) % 8 = (t.val / 32) % 8; omega)
    exact congrArg (fun w => k0_pay2 (F := Ideal) (lhsBlk m c t) w (biasBlk m c t) (scaleBlk m c t) (offsetBlk m c t))
      ((scratch_after m c (t.val - 1) (Nat.lt_of_le_of_lt (Nat.sub_le _ _) t.isLt)).trans (congrArg (rhsFloats m c) hb))

end Cert.KernelIdeal.Blocks

end
-- ==== Proof.KernelValue.lean ====
/-
  The kernel's result array is the affine product of the arguments.

  Point t writes its block back to batch t / 32, rows 128·(t % 32) … 128·(t % 32) + 127, all 2048 columns of the
  result. At (u, r, n) of the block the tile is
      ((∑ k, integer of left block (0, r, k) · converted right batch (k, n)) + bias (0, n)) · scale (0, n) + offset (0, n),
  and the left block at (0, r, k) is the left operand at (batch, 128·tile + r, k), the converted batch at (k, n) the
  integer of the right operand at (batch, k, n), each row at (0, n) its vector at n: this is the affine product at
  (batch, 128·tile + r, n), the array index the block's (u, r, n) lands on. So every point writes back the block of
  ONE function of the arguments.

  Every index (b, row, n) of the result lies in the block of point 32·b + row / 128, and every point writes back, so
  the blocks cover the array and it ends holding that function.
-/
import proofs.«104903_j22265110462493_1_alg».proof.Proof.KernelBlocks

set_option maxRecDepth 16384

noncomputable section

namespace Cert.KernelIdeal.Result

open Cert.KernelIdeal Cert.KernelIdeal.Gen Cert.KernelIdeal.Blocks Idealize.ShloMosaic Idealize.ShloMosaic.TcCoe Idealize.SL.Sem
open Idealize.ShloMosaic.ValueIdx Cert.AffineProduct
open Idealize.ShloMosaic.Pipeline (Dat)
open scoped BigOperators

variable (m : (ℓ : Loc nD τ sig) → Buf (Elt Ideal) ℓ) (ρ : Dev nD → PrngReg)

/-- The affine product of the arguments as launched. -/
abbrev product (c : Dev nD) : S8x4096x2048.Idx → EReal :=
  value (m ((c : Thread nD τ).loc main_arg0)) (m ((c : Thread nD τ).loc main_arg1)) (m ((c : Thread nD τ).loc main_arg2)) (m ((c : Thread nD τ).loc main_arg3)) (m ((c : Thread nD τ).loc main_arg4))

/-- The same over the two integer operands as the region finds them: no host operation writes them. -/
theorem product_entry (c : Dev nD) :
    value (lhsArr m c) (rhsArr m c) (m ((c : Thread nD τ).loc main_arg2)) (m ((c : Thread nD τ).loc main_arg3)) (m ((c : Thread nD τ).loc main_arg4)) = product m c := by
  show value (V m c main_arg0) (V m c main_arg1) _ _ _ = _
  rw [V_main_arg0, V_main_arg1]

/-- What point t writes back is its block of the affine product. -/
theorem flushed_eq (c : Dev nD) (t : Fin cfg0.N) :
    (dats m 0 c).flushed 5 t = ((cfg0.win 5).blk t).view.read (Elt Ideal) (product m c) := by
  rw [Value.flushed5, block_at, ← product_entry]
  obtain ⟨-, -, -, -, -, -, -, -, -, -, -, -, e0, e1, e2⟩ := block_index t
  have hN := point_lt t
  funext j
  obtain ⟨u, r, n, rfl⟩ : ∃ (u : Fin 1) (r : Fin 128) (n : Fin 2048), j = ix3 u r n := ⟨j 0, j 1, j 2, eq_ix3 j⟩
  have hrow : (t.val % 32) * 128 + r.val < 4096 := by omega
  have hemb : ((cfg0.win 5).blk t).view.emb (ix3 u r n) = ix3 (batchOf t.val) (⟨(t.val % 32) * 128 + r.val, hrow⟩ : Fin 4096) n := by
    funext a; apply Fin.ext
    match a with
    | ⟨0, _⟩ => show win0_5.index t (0 : Fin 3) * 1 + 1 * u.val = (t.val / 32) % 8; omega
    | ⟨1, _⟩ => show win0_5.index t (1 : Fin 3) * 128 + 1 * r.val = (t.val % 32) * 128 + r.val; omega
    | ⟨2, _⟩ => show win0_5.index t (2 : Fin 3) * 2048 + 1 * n.val = n.val; omega
  show k0_pay2 (F := Ideal) (lhsBlk m c t) (rhsFloats m c (batchOf t.val)) (biasBlk m c t) (scaleBlk m c t) (offsetBlk m c t) (ix3 u r n)
    = value (lhsArr m c) (rhsArr m c) (m ((c : Thread nD τ).loc main_arg2)) (m ((c : Thread nD τ).loc main_arg3)) (m ((c : Thread nD τ).loc main_arg4)) (((cfg0.win 5).blk t).view.emb (ix3 u r n))
  rw [hemb, value_apply]
  refine (Tile.tile_apply (lhsBlk m c t) (rhsFloats m c (batchOf t.val)) (biasBlk m c t) (scaleBlk m c t) (offsetBlk m c t) u r n).trans ?_
  rw [biasBlk_apply, scaleBlk_apply, offsetBlk_apply, biasRow_apply, scaleRow_apply, offsetRow_apply]
  have hsum : (∑ k : Fin 2048, wordVal (lhsBlk m c t (ix3 (0 : Fin 1) r k)) * rhsFloats m c (batchOf t.val) (ix2 k n))
      = ∑ k : Fin 2048, wordVal (lhsArr m c (ix3 (batchOf t.val) (⟨(t.val % 32) * 128 + r.val, hrow⟩ : Fin 4096) k))
          * wordVal (rhsArr m c (ix3 (batchOf t.val) k n)) :=
    Finset.sum_congr rfl fun k _ => by
      rw [lhsBlk_apply m c t (0 : Fin 1) r k ⟨(t.val % 32) * 128 + r.val, hrow⟩ rfl]
      rfl
  rw [hsum]

/-- An index of the result is in point t's block iff each coordinate is in the block's range on its axis. -/
theorem mem_block (t : Fin cfg0.N) (i : S8x4096x2048.Idx) :
    i ∈ ((cfg0.win 5).blk t).view.set ↔ ∀ a : Fin 3, win0_5.index t a * S1x128x2048.size a ≤ (i a).val ∧ (i a).val < win0_5.index t a * S1x128x2048.size a + S1x128x2048.size a := by
  show i ∈ ((View.whole main_v3).slice (win0_5.rect t)).set ↔ _
  rw [View.set_slice_whole, Rect.mem_set_unit]
  exact Iff.rfl

/-- Index (b, row, n) lies in the block of point 32·b + row / 128, which writes back. -/
theorem covered (i : S8x4096x2048.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 2048 := (i 2).isLt
  have hlt : 32 * (i 0).val + (i 1).val / 128 < cfg0.N := by
    show _ < grid0.N
    rw [N_0]; omega
  refine ⟨⟨32 * (i 0).val + (i 1).val / 128, hlt⟩, flush0_5 _, ?_⟩
  rw [mem_block]
  obtain ⟨-, -, -, -, -, -, -, -, -, -, -, -, e0, e1, e2⟩ := block_index ⟨32 * (i 0).val + (i 1).val / 128, hlt⟩
  have e0' : win0_5.index ⟨32 * (i 0).val + (i 1).val / 128, hlt⟩ (0 : Fin 3) = (32 * (i 0).val + (i 1).val / 128) / 32 := e0
  have e1' : win0_5.index ⟨32 * (i 0).val + (i 1).val / 128, hlt⟩ (1 : Fin 3) = (32 * (i 0).val + (i 1).val / 128) % 32 := e1
  intro a
  match a with
  | ⟨0, _⟩ => show win0_5.index ⟨32 * (i 0).val + (i 1).val / 128, hlt⟩ (0 : Fin 3) * 1 ≤ (i 0).val ∧ (i 0).val < win0_5.index ⟨32 * (i 0).val + (i 1).val / 128, hlt⟩ (0 : Fin 3) * 1 + 1; omega
  | ⟨1, _⟩ => show win0_5.index ⟨32 * (i 0).val + (i 1).val / 128, hlt⟩ (1 : Fin 3) * 128 ≤ (i 1).val ∧ (i 1).val < win0_5.index ⟨32 * (i 0).val + (i 1).val / 128, hlt⟩ (1 : Fin 3) * 128 + 128; omega
  | ⟨2, _⟩ => show win0_5.index ⟨32 * (i 0).val + (i 1).val / 128, hlt⟩ (2 : Fin 3) * 2048 ≤ (i 2).val ∧ (i 2).val < win0_5.index ⟨32 * (i 0).val + (i 1).val / 128, hlt⟩ (2 : Fin 3) * 2048 + 2048; omega

/-- The result array after the run: the affine product of the arguments. -/
theorem final (c : Dev nD) : (dats m 0 c).arrAt 5 cfg0.N = product m c :=
  (dats m 0 c).arrAt_eq_of_cover 5 (product m c) (fun t _ => flushed_eq m c t) covered

/-- The run, read: the result array at the affine product, the arguments unchanged. -/
theorem run : θ_run defs (onTc (τ := τ) (main (F := Ideal))) ⟨m, fun _ => 0, ρ⟩ fun r => ∀ c : Dev nD,
      r.2.mem ((c : Thread nD τ).loc main_v3) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.lean ====
/-
  A dequantised batched matrix product with a per-channel affine epilogue:

      out[b, r, n] = ((∑ k, x1[b, r, k] · x2[b, k, n]) + bias[n]) · scale[n] + offset[n]

  for integer operands x1 : [8, 4096, 2048] and x2 : [8, 2048, 2048] and float vectors scale, offset, bias : [2048].

  The kernel walks a grid of 8 batches by 32 row tiles, in order. On entering a batch it converts the batch's right
  operand to floats once, into a scratch buffer it keeps for the batch's 32 tiles; every point converts its 128-row
  left tile, multiplies it with the scratch, and applies the bias, the scale and the offset, in that order. The
  reference converts both operands whole, takes the batched product, and applies the same three operations in the
  same order.

  Over the extended reals an integer-to-float conversion is the integer itself whatever the float format, and a matrix
  product into a zero accumulator, like the host's batched product, is the plain sum over the contracted axis. So both
  programs compute the function above, term for term: the scratch holds, after every point, the point's batch of x2 as
  integers (by induction along the grid), hence every point writes back its block of that function, the blocks cover
  the result, and the reference's twelve operations, read one at a time, are the same expression. No law that fails
  at infinite entries is used, so the precondition (the float inputs finite) is never opened.

  The three frames are the generated ones (the reference's: its generated run with the result dropped), and the
  idealization rewrote nothing.
-/
import proofs.«104903_j22265110462493_1_alg».proof.Defs
import proofs.«104903_j22265110462493_1_alg».proof.Proof.Gen.Kernel
import proofs.«104903_j22265110462493_1_alg».proof.Proof.Gen.Kernel.Skeleton
import proofs.«104903_j22265110462493_1_alg».proof.Proof.Gen.Kernel.Launch
import proofs.«104903_j22265110462493_1_alg».proof.Proof.Gen.Kernel.Points
import proofs.«104903_j22265110462493_1_alg».proof.Proof.Gen.Kernel.Frame
import proofs.«104903_j22265110462493_1_alg».proof.Proof.Gen.KernelIdeal
import proofs.«104903_j22265110462493_1_alg».proof.Proof.Gen.KernelIdeal.Skeleton
import proofs.«104903_j22265110462493_1_alg».proof.Proof.Gen.KernelIdeal.Launch
import proofs.«104903_j22265110462493_1_alg».proof.Proof.Gen.KernelIdeal.Points
import proofs.«104903_j22265110462493_1_alg».proof.Proof.Gen.KernelIdeal.Frame
import proofs.«104903_j22265110462493_1_alg».proof.Proof.Gen.ReferenceIdeal
import proofs.«104903_j22265110462493_1_alg».proof.Proof.Gen.Pre_finite_inputs
import proofs.«104903_j22265110462493_1_alg».proof.Proof.Gen.KernelIdeal.Value
import proofs.«104903_j22265110462493_1_alg».proof.Proof.Gen.ReferenceIdeal.Run
import proofs.«104903_j22265110462493_1_alg».proof.Proof.Gen.ReferenceIdeal.Read
import proofs.«104903_j22265110462493_1_alg».proof.Proof.ReferenceValue
import proofs.«104903_j22265110462493_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the affine product of those arguments: the
    kernel's result array block by block, the reference's as its last operation's value. -/
theorem algebraic : Cert.algebraic_KernelIdeal_ReferenceIdeal := by
  intro m ρ m' ρ' _ hagree
  refine ⟨fun c => Cert.KernelIdeal.Result.product m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v11_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
